-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x9x512x512 : Shape := ⟨4, ![16, 9, 512, 512]⟩
abbrev S_ : Shape := ⟨0, ![]⟩

class Facts : Prop where
  bcast_S_S16x9x512x512 : S_.BroadcastsInDim S16x9x512x512 (![] : Fin 0 → Fin S16x9x512x512.rank)
  reducesTo_S16x9x512x512_S_d0_1_2_3 : S16x9x512x512.ReducesTo [0, 1, 2, 3] S_
  h_S_ : 0 < S_.numel

variable [Facts]

def fn {F : FTy → Type} [FloatOps F] (main_arg0 : FVec F S16x9x512x512 .f32) : IVec S_ 1 :=
  let main_v0 : FVec F S16x9x512x512 .f32 := Host.absf main_arg0
  let main_cst : FVec F S_ .f32 := constant S_ .f32 0x7F800000#32
  let main_v1 : FVec F S16x9x512x512 .f32 := broadcastInDim S16x9x512x512 ![] bcast_S_S16x9x512x512 main_cst
  let main_v2 : IVec S16x9x512x512 1 := cmpf .olt main_v0 main_v1
  let main_c : IVec S_ 1 := constantI S_ 1 1#1
  let main_v3 : IVec S_ 1 := (fun x v => Host.reduce IntOp.andi x v reducesTo_S16x9x512x512_S_d0_1_2_3 h_S_) main_v2 main_c
  main_v3
-- ==== Kernel.lean ====
abbrev S16x9x512x512 : Shape := ⟨4, ![16, 9, 512, 512]⟩
abbrev S16x1x512x512 : Shape := ⟨4, ![16, 1, 512, 512]⟩
abbrev S1x9x512x512 : Shape := ⟨4, ![1, 9, 512, 512]⟩
abbrev S1x1x512x512 : Shape := ⟨4, ![1, 1, 512, 512]⟩
abbrev S512x512 : Shape := ⟨2, ![512, 512]⟩

abbrev nBuf : Space → Nat
  | .hbm => 2
  | .vmem => 4
  | .smem => 0
  | _ => 0

abbrev bufTy : (tb : Table) → Fin (tcTables nBuf tb) → BufTy
  | .hbm, ⟨0, _⟩ => ⟨S16x9x512x512, .f32⟩
  | .hbm, ⟨1, _⟩ => ⟨S16x1x512x512, .f32⟩
  | .local _ .vmem, ⟨0, _⟩ => ⟨S1x9x512x512, .f32⟩
  | .local _ .vmem, ⟨1, _⟩ => ⟨S1x9x512x512, .f32⟩
  | .local _ .vmem, ⟨2, _⟩ => ⟨S1x1x512x512, .f32⟩
  | .local _ .vmem, ⟨3, _⟩ => ⟨S1x1x512x512, .f32⟩
  | _, _ => ⟨S16x9x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x9x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x9x512x512_S1x1x512x512_0_0_0_0 : ∀ a, (![0, 0, 0, 0] : Fin 4 → Nat) a + S1x1x512x512.size a ≤ S1x9x512x512.size a
  h_S1x1x512x512 : 0 < S1x1x512x512.numel
  shapeCasts_S1x1x512x512_S512x512 : S1x1x512x512.ShapeCasts S512x512
  rotates_S512x512_d0 : S512x512.Rotates 0 none
  iota_S512x512_d0_w32 : S512x512.Iotas .tc 32 [0]
  rotates_S512x512_d1 : S512x512.Rotates 1 none
  iota_S512x512_d1_w32 : S512x512.Iotas .tc 32 [1]
  inb_S1x9x512x512_S1x1x512x512_0_1_0_0 : ∀ a, (![0, 1, 0, 0] : Fin 4 → Nat) a + S1x1x512x512.size a ≤ S1x9x512x512.size a
  inb_S1x9x512x512_S1x1x512x512_0_2_0_0 : ∀ a, (![0, 2, 0, 0] : Fin 4 → Nat) a + S1x1x512x512.size a ≤ S1x9x512x512.size a
  inb_S1x9x512x512_S1x1x512x512_0_3_0_0 : ∀ a, (![0, 3, 0, 0] : Fin 4 → Nat) a + S1x1x512x512.size a ≤ S1x9x512x512.size a
  inb_S1x9x512x512_S1x1x512x512_0_4_0_0 : ∀ a, (![0, 4, 0, 0] : Fin 4 → Nat) a + S1x1x512x512.size a ≤ S1x9x512x512.size a
  inb_S1x9x512x512_S1x1x512x512_0_5_0_0 : ∀ a, (![0, 5, 0, 0] : Fin 4 → Nat) a + S1x1x512x512.size a ≤ S1x9x512x512.size a
  inb_S1x9x512x512_S1x1x512x512_0_6_0_0 : ∀ a, (![0, 6, 0, 0] : Fin 4 → Nat) a + S1x1x512x512.size a ≤ S1x9x512x512.size a
  inb_S1x9x512x512_S1x1x512x512_0_7_0_0 : ∀ a, (![0, 7, 0, 0] : Fin 4 → Nat) a + S1x1x512x512.size a ≤ S1x9x512x512.size a
  inb_S1x9x512x512_S1x1x512x512_0_8_0_0 : ∀ a, (![0, 8, 0, 0] : Fin 4 → Nat) a + S1x1x512x512.size a ≤ S1x9x512x512.size a
  inb_S1x1x512x512_S1x1x512x512_0_0_0_0 : ∀ a, (![0, 0, 0, 0] : Fin 4 → Nat) a + S1x1x512x512.size a ≤ S1x1x512x512.size a
  shapeCasts_S512x512_S1x1x512x512 : S512x512.ShapeCasts S1x1x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x9x512x512.size a ≤ S16x9x512x512.size a
  hwx0_0 : ∀ i : grid0.Coords, EltTy.bits .f32 = 32 ∨ (Rect.block (s := S16x9x512x512) S1x9x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S16x1x512x512.size a
  hwx0_1 : ∀ i : grid0.Coords, EltTy.bits .f32 = 32 ∨ (Rect.block (s := S16x1x512x512) S1x1x512x512.size (cc0_transform_1 i) (hinb0_1 i)).WholeWords (EltTy.packing .f32)

variable [Facts₀]

abbrev win0_0 : Pipeline.Window sig grid0 :=
  Pipeline.Window.ofSpec (Memref.whole main_arg0) S1x9x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x9x512x512 : Shape := ⟨4, ![16, 9, 512, 512]⟩
abbrev S_ : Shape := ⟨0, ![]⟩
abbrev S16x9x514x514 : Shape := ⟨4, ![16, 9, 514, 514]⟩
abbrev S16x512x512 : Shape := ⟨3, ![16, 512, 512]⟩
abbrev S16x1x512x512 : Shape := ⟨4, ![16, 1, 512, 512]⟩

abbrev nBuf : Space → Nat
  | .hbm => 34
  | .vmem => 0
  | .smem => 0
  | _ => 0

abbrev bufTy : (tb : Table) → Fin (tcTables nBuf tb) → BufTy
  | .hbm, ⟨0, _⟩ => ⟨S16x9x512x512, .f32⟩
  | .hbm, ⟨1, _⟩ => ⟨S_, .i32⟩
  | .hbm, ⟨2, _⟩ => ⟨S_, .f32⟩
  | .hbm, ⟨3, _⟩ => ⟨S16x9x514x514, .f32⟩
  | .hbm, ⟨4, _⟩ => ⟨S_, .f32⟩
  | .hbm, ⟨5, _⟩ => ⟨S16x512x512, .f32⟩
  | .hbm, ⟨6, _⟩ => ⟨S16x1x512x512, .f32⟩
  | .hbm, ⟨7, _⟩ => ⟨S16x512x512, .f32⟩
  | .hbm, ⟨8, _⟩ => ⟨S16x512x512, .f32⟩
  | .hbm, ⟨9, _⟩ => ⟨S16x1x512x512, .f32⟩
  | .hbm, ⟨10, _⟩ => ⟨S16x512x512, .f32⟩
  | .hbm, ⟨11, _⟩ => ⟨S16x512x512, .f32⟩
  | .hbm, ⟨12, _⟩ => ⟨S16x1x512x512, .f32⟩
  | .hbm, ⟨13, _⟩ => ⟨S16x512x512, .f32⟩
  | .hbm, ⟨14, _⟩ => ⟨S16x512x512, .f32⟩
  | .hbm, ⟨15, _⟩ => ⟨S16x1x512x512, .f32⟩
  | .hbm, ⟨16, _⟩ => ⟨S16x512x512, .f32⟩
  | .hbm, ⟨17, _⟩ => ⟨S16x512x512, .f32⟩
  | .hbm, ⟨18, _⟩ => ⟨S16x1x512x512, .f32⟩
  | .hbm, ⟨19, _⟩ => ⟨S16x512x512, .f32⟩
  | .hbm, ⟨20, _⟩ => ⟨S16x512x512, .f32⟩
  | .hbm, ⟨21, _⟩ => ⟨S16x1x512x512, .f32⟩
  | .hbm, ⟨22, _⟩ => ⟨S16x512x512, .f32⟩
  | .hbm, ⟨23, _⟩ => ⟨S16x512x512, .f32⟩
  | .hbm, ⟨24, _⟩ => ⟨S16x1x512x512, .f32⟩
  | .hbm, ⟨25, _⟩ => ⟨S16x512x512, .f32⟩
  | .hbm, ⟨26, _⟩ => ⟨S16x512x512, .f32⟩
  | .hbm, ⟨27, _⟩ => ⟨S16x1x512x512, .f32⟩
  | .hbm, ⟨28, _⟩ => ⟨S16x512x512, .f32⟩
  | .hbm, ⟨29, _⟩ => ⟨S16x512x512, .f32⟩
  | .hbm, ⟨30, _⟩ => ⟨S16x1x512x512, .f32⟩
  | .hbm, ⟨31, _⟩ => ⟨S16x512x512, .f32⟩
  | .hbm, ⟨32, _⟩ => ⟨S16x512x512, .f32⟩
  | .hbm, ⟨33, _⟩ => ⟨S16x1x512x512, .f32⟩
  | _, _ => ⟨S16x9x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]

class Facts₀ : Prop where
  pads_S16x9x512x512_S16x9x514x514_000_000_110_110 : S16x9x512x512.Pads (![0, 0, 1, 1] : Fin 4 → Nat) ![0, 0, 1, 1] ![0, 0, 0, 0] S16x9x514x514
  h_S_ : 0 < S_.numel
  bcast_S_S16x512x512 : S_.BroadcastsInDim S16x512x512 (![] : Fin 0 → Fin S16x512x512.rank)
  slices_S16x9x514x514_S16x1x512x512_0_0_2_2 : S16x9x514x514.Slices ![0, 0, 2, 2] S16x1x512x512
  shapeCasts_S16x1x512x512_S16x512x512 : S16x1x512x512.ShapeCasts S16x512x512
  slices_S16x9x514x514_S16x1x512x512_0_1_2_1 : S16x9x514x514.Slices ![0, 1, 2, 1] S16x1x512x512
  slices_S16x9x514x514_S16x1x512x512_0_2_2_0 : S16x9x514x514.Slices ![0, 2, 2, 0] S16x1x512x512
  slices_S16x9x514x514_S16x1x512x512_0_3_1_2 : S16x9x514x514.Slices ![0, 3, 1, 2] S16x1x512x512
  slices_S16x9x514x514_S16x1x512x512_0_4_1_1 : S16x9x514x514.Slices ![0, 4, 1, 1] S16x1x512x512
  slices_S16x9x514x514_S16x1x512x512_0_5_1_0 : S16x9x514x514.Slices ![0, 5, 1, 0] S16x1x512x512
  slices_S16x9x514x514_S16x1x512x512_0_6_0_2 : S16x9x514x514.Slices ![0, 6, 0, 2] S16x1x512x512
  slices_S16x9x514x514_S16x1x512x512_0_7_0_1 : S16x9x514x514.Slices ![0, 7, 0, 1] S16x1x512x512
  slices_S16x9x514x514_S16x1x512x512_0_8_0_0 : S16x9x514x514.Slices ![0, 8, 0, 0] S16x1x512x512
  bcast_S16x512x512_S16x1x512x512_0_2_3 : S16x512x512.BroadcastsInDim S16x1x512x512 (![0, 2, 3] : Fin 3 → Fin S16x1x512x512.rank)

variable [Facts₀]

class Facts : Prop extends Facts₀ where

variable [Facts]
-- ==== Proof.Taps.lean ====
/-
  ONE TAP OF A 3 × 3 FOLD. A 512 × 512 plane `X` read one step off its centre: output coordinate `p` reads input
  coordinate `p + o − 1` for an offset `o ∈ {0, 1, 2}` per axis, and where that coordinate falls outside `[0, 512)` the tap
  is the fill value `z`. This is what a zero-padded plane sliced at start `(o₁, o₂)` holds, and it is also what a rotation
  of the plane by one step around the end holds once the wrapped-around border is masked to `z`. Both spellings are read
  here at an index and brought to the same `if`:

  * `inr o p` — the input coordinate exists: `1 ≤ p + o ≤ 512`; `mv o p` — that coordinate, `(p + o + 511) mod 512`,
    taken around the end so that it is a total function (it is `p + o − 1` whenever `inr o p`);
  * `tap z X o₁ o₂ p q` — `X (mv o₁ p) (mv o₂ q)` when both coordinates exist, `z` otherwise (`tap_row`, `tap_col`,
    `tap_mid`: the forms with an axis at the centre offset 1);
  * a rotation by 511 along an axis under the mask `coordinate < 511` is offset `2` (it reads `p + 1`), a rotation by 1
    under the mask `coordinate ≥ 1` is offset `0` (it reads `p − 1`): `rowNext_apply`, `rowPrev_apply`, `colNext_apply`,
    `colPrev_apply`;
  * a pad by one on each side of the two plane axes, read at `(o₁ + p, o₂ + q)`, is the tap at offsets `(o₁, o₂)`:
    `pad_apply_tap`.
-/
import Idealize.ShloMosaic.Lib.KernelVsHost
import Idealize.ShloMosaic.Lib.StableHlo.Predicate

noncomputable section

namespace Cert.Fold

open Idealize.ShloMosaic Idealize.ShloMosaic.ValueIdx

variable {α : Type}

/-- The 512 × 512 plane every channel is. -/
abbrev Plane : Shape := ⟨2, ![512, 512]⟩

/-! ## The tap -/

/-- At offset `o`, output coordinate `p` reads input coordinate `p + o − 1`: it exists when `1 ≤ p + o ≤ 512`. -/
def inr (o : Nat) (p : Fin 512) : Prop := 1 ≤ p.val + o ∧ p.val + o ≤ 512

instance (o : Nat) (p : Fin 512) : Decidable (inr o p) := inferInstanceAs (Decidable (_ ∧ _))

/-- The coordinate read, around the end: `p + o − 1` whenever it exists. -/
def mv (o : Nat) (p : Fin 512) : Fin 512 := ⟨(p.val + o + 511) % 512, Nat.mod_lt _ (by decide)⟩

/-- One tap of the fold: the plane one step off its centre, `z` where the step leaves the plane. -/
def tap (z : α) (X : Fin 512 → Fin 512 → α) (o₁ o₂ : Nat) (p q : Fin 512) : α :=
  if inr o₂ q then (if inr o₁ p then X (mv o₁ p) (mv o₂ q) else z) else z

/-- The centre offset always exists … -/
theorem inr_one (p : Fin 512) : inr 1 p := by
  have hp : p.val < 512 := p.isLt
  exact ⟨by omega, by omega⟩

/-- … and reads the coordinate itself. -/
theorem mv_one (p : Fin 512) : mv 1 p = p := by
  have hp : p.val < 512 := p.isLt
  apply Fin.ext
  show (p.val + 1 + 511) % 512 = p.val
  omega

/-- A tap centred on the columns steps along the rows only … -/
theorem tap_row (z : α) (X : Fin 512 → Fin 512 → α) (o : Nat) (p q : Fin 512) :
    tap z X o 1 p q = if inr o p then X (mv o p) q else z := by
  unfold tap; rw [if_pos (inr_one q), mv_one]

/-- … one centred on the rows steps along the columns only … -/
theorem tap_col (z : α) (X : Fin 512 → Fin 512 → α) (o : Nat) (p q : Fin 512) :
    tap z X 1 o p q = if inr o q then X p (mv o q) else z := by
  unfold tap; rw [if_pos (inr_one p), mv_one]

/-- … and the centre tap is the plane itself. -/
theorem tap_mid (z : α) (X : Fin 512 → Fin 512 → α) (p q : Fin 512) : tap z X 1 1 p q = X p q := by
  unfold tap; rw [if_pos (inr_one q), if_pos (inr_one p), mv_one, mv_one]

/-! ## The kernel's spelling: a rotation around the end, its wrapped border masked -/

/-- A rotation along the rows by an amount that is `1 − o` modulo 512 reads row `mv o p`. -/
theorem rotRow_apply (sb : BitVec 32) (o : Nat) (hs : (sb.toNat % 512 + o) % 512 = 1) (v : Plane.Idx → α)
    (hr : Plane.Rotates 0 none) (p q : Fin 512) :
    dynamicRotate 0 sb none v hr (ix2 p q) = v (ix2 (mv o p) q) := by
  refine dynamicRotate_apply 0 sb v hr (ix2 p q) (ix2 (mv o p) q) fun b => ?_
  have hp : p.val < 512 := p.isLt
  match b with
  | ⟨0, h0⟩ =>
    have e : (⟨0, h0⟩ : Fin Plane.rank) = 0 := Fin.ext rfl
    rw [if_pos e]
    show (p.val + o + 511) % 512 = (p.val + 512 - sb.toNat % 512) % 512
    have := Nat.mod_lt sb.toNat (show 0 < 512 by decide)
    omega
  | ⟨1, h1⟩ =>
    have e : ¬(⟨1, h1⟩ : Fin Plane.rank) = 0 := fun h => absurd (congrArg Fin.val h) Nat.one_ne_zero
    rw [if_neg e]

/-- A rotation along the columns by an amount that is `1 − o` modulo 512 reads column `mv o q`. -/
theorem rotCol_apply (sb : BitVec 32) (o : Nat) (hs : (sb.toNat % 512 + o) % 512 = 1) (v : Plane.Idx → α)
    (hr : Plane.Rotates 1 none) (p q : Fin 512) :
    dynamicRotate 1 sb none v hr (ix2 p q) = v (ix2 p (mv o q)) := by
  refine dynamicRotate_apply 1 sb v hr (ix2 p q) (ix2 p (mv o q)) fun b => ?_
  have hq : q.val < 512 := q.isLt
  match b with
  | ⟨0, h0⟩ =>
    have e : ¬(⟨0, h0⟩ : Fin Plane.rank) = 1 := fun h => absurd (congrArg Fin.val h) Nat.zero_ne_one
    rw [if_neg e]
  | ⟨1, h1⟩ =>
    have e : (⟨1, h1⟩ : Fin Plane.rank) = 1 := Fin.ext rfl
    rw [if_pos e]
    show (q.val + o + 511) % 512 = (q.val + 512 - sb.toNat % 512) % 512
    have := Nat.mod_lt sb.toNat (show 0 < 512 by decide)
    omega

/-- A coordinate below 512 as a 32-bit word is itself. -/
theorem toNat_ofNat_coord (n : Nat) (hn : n < 512) : (BitVec.ofNat 32 n).toNat = n := by
  rw [BitVec.toNat_ofNat]; exact Nat.mod_eq_of_lt (by omega)

/-- The mask `coordinate < 511` keeps exactly the coordinates whose successor exists: offset 2. -/
theorem select_lt511 (n : Fin 512) (x y : α) :
    Scalar.select (IntOp.cmpi .slt (BitVec.ofNat 32 n.val) 511#32) x y = if inr 2 n then x else y := by
  have hn : n.val < 512 := n.isLt
  show (if IntOp.cmpi .slt (BitVec.ofNat 32 n.val) 511#32 = 1#1 then x else y) = _
  refine if_congr ?_ rfl rfl
  rw [StableHlo.Predicate.slt_iff_toNat (by rw [toNat_ofNat_coord n.val hn]; omega) (by decide), toNat_ofNat_coord n.val hn]
  show n.val < 511 ↔ 1 ≤ n.val + 2 ∧ n.val + 2 ≤ 512
  omega

/-- The mask `coordinate ≥ 1` keeps exactly the coordinates whose predecessor exists: offset 0. -/
theorem select_ge1 (n : Fin 512) (x y : α) :
    Scalar.select (IntOp.cmpi .sge (BitVec.ofNat 32 n.val) 1#32) x y = if inr 0 n then x else y := by
  have hn : n.val < 512 := n.isLt
  show (if IntOp.cmpi .sge (BitVec.ofNat 32 n.val) 1#32 = 1#1 then x else y) = _
  refine if_congr ?_ rfl rfl
  rw [StableHlo.Predicate.sge_iff_toNat (by rw [toNat_ofNat_coord n.val hn]; omega) (by decide), toNat_ofNat_coord n.val hn]
  show 1 ≤ n.val ↔ 1 ≤ n.val + 0 ∧ n.val + 0 ≤ 512
  omega

/-- Rows rotated by 511 under `row < 511`: each row reads the next one, the last row is filled. -/
theorem rowNext_apply (v : Plane.Idx → α) (z : α) (hr : Plane.Rotates 0 none) (hi : Plane.Iotas .tc 32 [0]) (p q : Fin 512) :
    select (cmpi .slt (iota .tc Plane 32 [0] hi) (broadcast Plane 511#32)) (dynamicRotate 0 511#32 none v hr) (broadcast Plane z)
      (ix2 p q) = if inr 2 p then v (ix2 (mv 2 p) q) else z := by
  show Scalar.select (IntOp.cmpi .slt (iota .tc Plane 32 [0] hi (ix2 p q)) 511#32) (dynamicRotate 0 511#32 none v hr (ix2 p q)) z = _
  rw [iota_single_apply, rotRow_apply 511#32 2 (by decide)]
  exact select_lt511 p _ _

/-- Rows rotated by 1 under `row ≥ 1`: each row reads the one before, the first row is filled. -/
theorem rowPrev_apply (v : Plane.Idx → α) (z : α) (hr : Plane.Rotates 0 none) (hi : Plane.Iotas .tc 32 [0]) (p q : Fin 512) :
    select (cmpi .sge (iota .tc Plane 32 [0] hi) (broadcast Plane 1#32)) (dynamicRotate 0 1#32 none v hr) (broadcast Plane z)
      (ix2 p q) = if inr 0 p then v (ix2 (mv 0 p) q) else z := by
  show Scalar.select (IntOp.cmpi .sge (iota .tc Plane 32 [0] hi (ix2 p q)) 1#32) (dynamicRotate 0 1#32 none v hr (ix2 p q)) z = _
  rw [iota_single_apply, rotRow_apply 1#32 0 (by decide)]
  exact select_ge1 p _ _

/-- Columns rotated by 511 under `column < 511`: each column reads the next one, the last column is filled. -/
theorem colNext_apply (v : Plane.Idx → α) (z : α) (hr : Plane.Rotates 1 none) (hi : Plane.Iotas .tc 32 [1]) (p q : Fin 512) :
    select (cmpi .slt (iota .tc Plane 32 [1] hi) (broadcast Plane 511#32)) (dynamicRotate 1 511#32 none v hr) (broadcast Plane z)
      (ix2 p q) = if inr 2 q then v (ix2 p (mv 2 q)) else z := by
  show Scalar.select (IntOp.cmpi .slt (iota .tc Plane 32 [1] hi (ix2 p q)) 511#32) (dynamicRotate 1 511#32 none v hr (ix2 p q)) z = _
  rw [iota_single_apply, rotCol_apply 511#32 2 (by decide)]
  exact select_lt511 q _ _

/-- Columns rotated by 1 under `column ≥ 1`: each column reads the one before, the first column is filled. -/
theorem colPrev_apply (v : Plane.Idx → α) (z : α) (hr : Plane.Rotates 1 none) (hi : Plane.Iotas .tc 32 [1]) (p q : Fin 512) :
    select (cmpi .sge (iota .tc Plane 32 [1] hi) (broadcast Plane 1#32)) (dynamicRotate 1 1#32 none v hr) (broadcast Plane z)
      (ix2 p q) = if inr 0 q then v (ix2 p (mv 0 q)) else z := by
  show Scalar.select (IntOp.cmpi .sge (iota .tc Plane 32 [1] hi (ix2 p q)) 1#32) (dynamicRotate 1 1#32 none v hr (ix2 p q)) z = _
  rw [iota_single_apply, rotCol_apply 1#32 0 (by decide)]
  exact select_ge1 q _ _

/-! ## The host's spelling: the plane padded by one on each side, sliced at the offsets -/

/-- The sixteen batches of nine planes, and the same padded by one row and one column on each side. -/
abbrev Planes : Shape := ⟨4, ![16, 9, 512, 512]⟩
abbrev PaddedPlanes : Shape := ⟨4, ![16, 9, 514, 514]⟩

/-- The padded planes read at row `o₁ + p`, column `o₂ + q` of plane `(b, ch)` are that plane's tap at offsets
    `(o₁, o₂)`, the fill being the padding value. -/
theorem pad_apply_tap (x : Planes.Idx → α) {u : Shape} (v : u.Idx → α)
    (hp : Planes.Pads ![0, 0, 1, 1] ![0, 0, 1, 1] ![0, 0, 0, 0] PaddedPlanes) (hu : 0 < u.numel)
    (b : Fin 16) (ch : Fin 9) (o₁ o₂ : Nat) (p q : Fin 512) (j : PaddedPlanes.Idx)
    (hj0 : (j 0).val = b.val) (hj1 : (j 1).val = ch.val) (hj2 : (j 2).val = o₁ + p.val) (hj3 : (j 3).val = o₂ + q.val) :
    pad PaddedPlanes ![0, 0, 1, 1] ![0, 0, 1, 1] ![0, 0, 0, 0] x v hp hu j
      = tap (v (Shape.Idx.first hu)) (fun a c => x (ix4 b ch a c)) o₁ o₂ p q := by
  have hpl : p.val < 512 := p.isLt
  have hql : q.val < 512 := q.isLt
  unfold tap
  by_cases h2 : inr o₂ q
  · by_cases h1 : inr o₁ p
    · rw [if_pos h2, if_pos h1]
      obtain ⟨h1a, h1b⟩ := h1
      obtain ⟨h2a, h2b⟩ := h2
      refine pad_apply_of_inside _ _ _ x v hp hu j (ix4 b ch (mv o₁ p) (mv o₂ q)) fun a => ?_
      match a with
      | ⟨0, _⟩ => show (j 0).val = 0 + b.val * (0 + 1); omega
      | ⟨1, _⟩ => show (j 1).val = 0 + ch.val * (0 + 1); omega
      | ⟨2, _⟩ => show (j 2).val = 1 + ((p.val + o₁ + 511) % 512) * (0 + 1); omega
      | ⟨3, _⟩ => show (j 3).val = 1 + ((q.val + o₂ + 511) % 512) * (0 + 1); omega
    · rw [if_pos h2, if_neg h1]
      refine pad_apply_of_not_inside _ _ _ x v hp hu j (2 : Fin 4) fun hin => h1 ?_
      have e1 : 1 ≤ (j 2).val := hin.1
      have e2 : ((j 2).val - 1) / (0 + 1) < 512 := hin.2.2
      constructor <;> omega
  · rw [if_neg h2]
    refine pad_apply_of_not_inside _ _ _ x v hp hu j (3 : Fin 4) fun hin => h2 ?_
    have e1 : 1 ≤ (j 3).val := hin.1
    have e2 : ((j 3).val - 1) / (0 + 1) < 512 := hin.2.2
    constructor <;> omega

end Cert.Fold

end
-- ==== Proof.FoldSpec.lean ====
/-
  THE FOLD (col2im of a 3 × 3 window at stride 1 and padding 1, one output channel). Nine input planes per batch; plane
  `ch = 3 i + j` is the contribution of window position `(i, j)`, and the output pixel `(p, q)` collects from it the pixel
  `(p − (i − 1), q − (j − 1))` where that pixel exists:

      out[b, 0, p, q] = Σ_{i, j ∈ {0, 1, 2}}  x[b, 3 i + j, p − (i − 1), q − (j − 1)]      (a term outside the plane is 0).

  In the vocabulary of `tap` the window position `(i, j)` is the offset pair `(2 − i, 2 − j)`. The nine taps are added one
  after the other onto the fill value, in channel order; the sum is kept in that order (it is the order both programs
  add in), so no law of the extended reals is needed to compare them.
-/
import proofs.«175158_j55791625175251_1_alg».proof.Proof.Taps

noncomputable section

namespace Cert.Fold

open Idealize.ShloMosaic Idealize.ShloMosaic.ValueIdx

/-- One output pixel of the fold of nine planes: the nine taps added onto the fill value, channel 0 first. -/
def foldAt {α : Type} [Add α] (z : α) (X : Fin 9 → Fin 512 → Fin 512 → α) (p q : Fin 512) : α :=
  z + tap z (X 0) 2 2 p q + tap z (X 1) 2 1 p q + tap z (X 2) 2 0 p q
    + tap z (X 3) 1 2 p q + tap z (X 4) 1 1 p q + tap z (X 5) 1 0 p q
    + tap z (X 6) 0 2 p q + tap z (X 7) 0 1 p q + tap z (X 8) 0 0 p q

/-- The sixteen folded planes, one output channel each. -/
abbrev Folded : Shape := ⟨4, ![16, 1, 512, 512]⟩

/-- THE RESULT as one function of the argument array: output pixel `(b, 0, p, q)` is the fold of batch `b`'s nine
    planes at `(p, q)`, over the extended reals, zero outside the planes. -/
def fold (x : Planes.Idx → EReal) : Folded.Idx → EReal :=
  fun i => foldAt (0 : EReal) (fun ch a c => x (ix4 (⟨(i 0).val, (i 0).isLt⟩ : Fin 16) ch a c))
    (⟨(i 2).val, (i 2).isLt⟩ : Fin 512) (⟨(i 3).val, (i 3).isLt⟩ : Fin 512)

/-- The fold at an index given by its coordinates. -/
theorem fold_apply (x : Planes.Idx → EReal) (b : Fin 16) (u : Fin 1) (p q : Fin 512) :
    fold x (ix4 b u p q) = foldAt (0 : EReal) (fun ch a c => x (ix4 b ch a c)) p q := rfl

end Cert.Fold

end
-- ==== Proof.KernelBlock.lean ====
/-
  WHAT ONE GRID POINT STORES. At a grid point the kernel holds one batch's nine planes as a `[1, 9, 512, 512]` block. It
  loads the planes one by one, moves plane `3 i + j` by `i − 1` rows and `j − 1` columns — a rotation around the end by
  `(i − 1) mod 512`, that is by 511 or by 1, followed by a select on the row (column) number that replaces what came around
  the end by zero — and adds the nine moved planes onto a plane of zeros, in channel order; the sum is stored as the
  `[1, 1, 512, 512]` output block. Read at pixel `(p, q)` each moved plane is a tap (`Cert.Fold.rowNext_apply` … for the
  moves, `chan_apply` for a plane of the block), so the stored block is the fold of the block's nine planes.
-/
import proofs.«175158_j55791625175251_1_alg».proof.Proof.Gen.KernelIdeal.Frame
import proofs.«175158_j55791625175251_1_alg».proof.Proof.FoldSpec

noncomputable section

namespace Cert.KernelIdeal.BlockValue

open Cert.KernelIdeal Cert.KernelIdeal.Gen Cert.Fold
open Idealize.ShloMosaic Idealize.ShloMosaic.ValueIdx

variable (x0 : Vec Ideal S1x9x512x512 .f32)

/-- Plane `k` of the block — the `[1, 1, 512, 512]` piece at channel offset `k`, viewed as a 512 × 512 plane — at `(a, c)`
    is the block's entry `(0, k, a, c)`. -/
theorem chan_apply (k : Nat) (hk : k < 9)
    (inb : ∀ a, (![0, k, 0, 0] : Fin 4 → Nat) a + S1x1x512x512.size a ≤ S1x9x512x512.size a) (a c : Fin 512) :
    shapeCast S512x512 (View.ld x0 (Rect.unit (s := S1x9x512x512) ![0, k, 0, 0] S1x1x512x512.size inb))
        shapeCasts_S1x1x512x512_S512x512 (ix2 a c)
      = x0 (ix4 (0 : Fin 1) (⟨k, hk⟩ : Fin 9) a c) := by
  rw [shapeCast_apply _ shapeCasts_S1x1x512x512_S512x512 (ix2 a c) (ix4 (0 : Fin 1) (0 : Fin 1) a c) (by
    rewrite [Shape.rowMajor_val_four, Shape.rowMajor_val_two]
    show ((0 * 1 + 0) * 512 + a.val) * 512 + c.val = a.val * 512 + c.val
    omega)]
  refine congrArg x0 (funext fun e => Fin.ext ?_)
  match e with
  | ⟨0, _⟩ => show 0 + 1 * 0 = 0; rfl
  | ⟨1, _⟩ => show k + 1 * 0 = k; omega
  | ⟨2, _⟩ => show 0 + 1 * a.val = a.val; omega
  | ⟨3, _⟩ => show 0 + 1 * c.val = c.val; omega

/-- The output block is stored whole: its one store starts at the origin. -/
theorem origin4 : (![0, 0, 0, 0] : Fin 4 → Nat) = fun _ => 0 := funext fun a => by fin_cases a <;> rfl

/-- THE STORED BLOCK at `(0, 0, p, q)` is the fold of the input block's nine planes at `(p, q)`. -/
theorem out_apply (p q : Fin 512) :
    out0_1 x0 (ix4 (0 : Fin 1) (0 : Fin 1) p q) = foldAt (0 : EReal) (fun ch a c => x0 (ix4 (0 : Fin 1) ch a c)) p q := by
  unfold out0_1
  rw [View.canon_unit_zero origin4]
  unfold k0_pay1
  rw [shapeCast_apply _ shapeCasts_S512x512_S1x1x512x512 (ix4 (0 : Fin 1) (0 : Fin 1) p q) (ix2 p q) (by
    rewrite [Shape.rowMajor_val_four, Shape.rowMajor_val_two]
    show p.val * 512 + q.val = ((0 * 1 + 0) * 512 + p.val) * 512 + q.val
    omega)]
  unfold k0_pay7 k0_pay4 k0_pay2 k0_pay3 k0_pay5 k0_pay6
  dsimp only
  simp only [addf_apply, broadcast_apply]
  rw [show (FloatOps.ofBits (F := Ideal) FTy.f32 0#32) = (0 : EReal) from Ideal.ofBits_zero_f32]
  unfold foldAt
  -- the ten summands, the plane of zeros first
  congr 1; congr 1; congr 1; congr 1; congr 1; congr 1; congr 1; congr 1; congr 1
  · rw [colNext_apply, rowNext_apply, chan_apply x0 0 (by decide)] <;> rfl
  · rw [rowNext_apply, chan_apply x0 1 (by decide), tap_row] <;> rfl
  · rw [colPrev_apply, rowNext_apply, chan_apply x0 2 (by decide)] <;> rfl
  · rw [colNext_apply, chan_apply x0 3 (by decide), tap_col] <;> rfl
  · rw [chan_apply x0 4 (by decide), tap_mid] <;> rfl
  · rw [colPrev_apply, chan_apply x0 5 (by decide), tap_col] <;> rfl
  · rw [colNext_apply, rowPrev_apply, chan_apply x0 6 (by decide)] <;> rfl
  · rw [rowPrev_apply, chan_apply x0 7 (by decide), tap_row] <;> rfl
  · rw [colPrev_apply, rowPrev_apply, chan_apply x0 8 (by decide)] <;> rfl

end Cert.KernelIdeal.BlockValue

end
-- ==== Proof.KernelFold.lean ====
/-
  THE KERNEL'S RESULT ARRAY IS THE FOLD. The grid has sixteen points, one per batch: point `t` stages batch `t`'s nine
  planes (input block index `(t, 0, 0, 0)`, a `[1, 9, 512, 512]` block) and writes back batch `t`'s output plane (output
  block index `(t, 0, 0, 0)`, a `[1, 1, 512, 512]` block). What a point stores is the fold of the planes it staged
  (`Cert.KernelIdeal.BlockValue.out_apply`), and those are the argument's planes of batch `t`, so what point `t` writes
  back is block `t` of the fold of the whole argument; the sixteen output blocks tile the result array (index `i` lies in
  the block of point `i 0`), so after the run the array is the fold of the argument.
-/
import proofs.«175158_j55791625175251_1_alg».proof.Proof.Gen.KernelIdeal.Value
import proofs.«175158_j55791625175251_1_alg».proof.Proof.KernelBlock

noncomputable section

namespace Cert.KernelIdeal.FoldValue

open Cert.KernelIdeal Cert.KernelIdeal.Gen Cert.KernelIdeal.Value Cert.KernelIdeal.BlockValue Cert.Fold
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## One point: the block it stores is a block of the fold -/

/-- A `[1, 9, 512, 512]` block that is batch `b` of an array `X` folds to the fold of `X` read in batch `b`: the stored
    block at `j` is `fold X` at any index `i` of batch `b` with `j`'s row and column. -/
theorem stored_eq_fold (x0 : Vec Ideal S1x9x512x512 .f32) (X : Planes.Idx → EReal) (b : Fin 16)
    (hx : ∀ (ch : Fin 9) (a c : Fin 512), x0 (ix4 (0 : Fin 1) ch a c) = X (ix4 b ch a c))
    (j : S1x1x512x512.Idx) (i : Folded.Idx)
    (hi0 : (i 0).val = b.val) (hi2 : (i 2).val = (j 2).val) (hi3 : (i 3).val = (j 3).val) :
    out0_1 x0 j = fold X i := by
  obtain ⟨u, u', p, q, rfl⟩ : ∃ (u u' : Fin 1) (p q : Fin 512), j = ix4 u u' p q := ⟨j 0, j 1, j 2, j 3, eq_ix4 j⟩
  obtain rfl : u = 0 := Subsingleton.elim _ _
  obtain rfl : u' = 0 := Subsingleton.elim _ _
  rw [out_apply]
  unfold fold
  have eb : (⟨(i 0).val, (i 0).isLt⟩ : Fin 16) = b := Fin.ext hi0
  have ep : (⟨(i 2).val, (i 2).isLt⟩ : Fin 512) = p := Fin.ext hi2
  have eq : (⟨(i 3).val, (i 3).isLt⟩ : Fin 512) = q := Fin.ext hi3
  rw [eb, ep, eq]
  exact congrArg (fun Y => foldAt (0 : EReal) Y p q) (funext fun ch => funext fun a => funext fun c => hx ch a c)

/-- The block indices of point `t`, decided over the sixteen points: `(t, 0, 0, 0)` for the input and for the output. -/
theorem block_index : ∀ t : Fin cfg0.N,
    win0_0.index t (0 : Fin 4) = t.val ∧ win0_0.index t (1 : Fin 4) = 0 ∧ win0_0.index t (2 : Fin 4) = 0
    ∧ win0_0.index t (3 : Fin 4) = 0 ∧ win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-- The input block at point `t` is batch `t` of the argument array. -/
theorem staged_eq (c : Dev nD) (t : Fin cfg0.N) (ch : Fin 9) (a c' : Fin 512) :
    iblk m c 0 t (ix4 (0 : Fin 1) ch a c') = V m c main_arg0 (ix4 (⟨t.val, t.isLt⟩ : Fin 16) ch a c') := by
  obtain ⟨e0, e1, e2, e3, -, -, -, -⟩ := block_index t
  show V m c main_arg0 (((cfg0.win 0).blk t).view.emb (ix4 (0 : Fin 1) ch a c')) = _
  refine congrArg (V m c main_arg0) (funext fun e => Fin.ext ?_)
  match e with
  | ⟨0, _⟩ => show win0_0.index t (0 : Fin 4) * 1 + 1 * 0 = t.val; omega
  | ⟨1, _⟩ => show win0_0.index t (1 : Fin 4) * 9 + 1 * ch.val = ch.val; omega
  | ⟨2, _⟩ => show win0_0.index t (2 : Fin 4) * 512 + 1 * a.val = a.val; omega
  | ⟨3, _⟩ => show win0_0.index t (3 : Fin 4) * 512 + 1 * c'.val = c'.val; omega

/-- WHAT POINT `t` WRITES BACK is block `t` of the fold of the argument array. -/
theorem flushed_eq (c : Dev nD) (t : Fin cfg0.N) :
    (dats m 0 c).flushed 1 t = ((cfg0.win 1).blk t).view.read (Elt Ideal) (fold (V m c main_arg0)) := by
  rw [flushed1]
  obtain ⟨-, -, -, -, f0, f1, f2, f3⟩ := block_index t
  funext j
  show out0_1 (iblk m c 0 t) j = fold (V m c main_arg0) (((cfg0.win 1).blk t).view.emb j)
  refine stored_eq_fold (iblk m c 0 t) (V m c main_arg0) (⟨t.val, t.isLt⟩ : Fin 16) (staged_eq m c t) j _ ?_ ?_ ?_
  · show win0_1.index t (0 : Fin 4) * 1 + 1 * (j 0).val = t.val
    have hj : (j 0).val < 1 := (j 0).isLt
    omega
  · show win0_1.index t (2 : Fin 4) * 512 + 1 * (j 2).val = (j 2).val; omega
  · show win0_1.index t (3 : Fin 4) * 512 + 1 * (j 3).val = (j 3).val; omega

/-! ## The sixteen output blocks tile the result array -/

/-- An index of the result array is in point `t`'s block iff each coordinate is in the block's range on its axis. -/
theorem mem_block (t : Fin cfg0.N) (i : S16x1x512x512.Idx) :
    i ∈ ((cfg0.win 1).blk t).view.set ↔ ∀ a : Fin 4, win0_1.index t a * S1x1x512x512.size a ≤ (i a).val
      ∧ (i a).val < win0_1.index t a * S1x1x512x512.size a + S1x1x512x512.size a := by
  show i ∈ ((View.whole main_v0).slice (win0_1.rect t)).set ↔ _
  rw [View.set_slice_whole, Rect.mem_set_unit]
  exact Iff.rfl

/-- Every index of the result array is in the block of the point its batch coordinate names. -/
theorem covered (i : S16x1x512x512.Idx) :
    ∃ t : Fin cfg0.N, (cfg0.win 1).flush t = true ∧ i ∈ ((cfg0.win 1).blk t).view.set := by
  have h0 : (i 0).val < 16 := (i 0).isLt
  have h1 : (i 1).val < 1 := (i 1).isLt
  have h2 : (i 2).val < 512 := (i 2).isLt
  have h3 : (i 3).val < 512 := (i 3).isLt
  refine ⟨⟨(i 0).val, h0⟩, flush0_1 _, ?_⟩
  obtain ⟨-, -, -, -, f0, f1, f2, f3⟩ := block_index ⟨(i 0).val, h0⟩
  rw [mem_block]
  intro a
  match a with
  | ⟨0, _⟩ =>
    show win0_1.index ⟨(i 0).val, h0⟩ (0 : Fin 4) * 1 ≤ (i 0).val ∧ (i 0).val < win0_1.index ⟨(i 0).val, h0⟩ (0 : Fin 4) * 1 + 1
    have : win0_1.index ⟨(i 0).val, h0⟩ (0 : Fin 4) = (i 0).val := f0
    omega
  | ⟨1, _⟩ =>
    show win0_1.index ⟨(i 0).val, h0⟩ (1 : Fin 4) * 1 ≤ (i 1).val ∧ (i 1).val < win0_1.index ⟨(i 0).val, h0⟩ (1 : Fin 4) * 1 + 1
    omega
  | ⟨2, _⟩ =>
    show win0_1.index ⟨(i 0).val, h0⟩ (2 : Fin 4) * 512 ≤ (i 2).val ∧ (i 2).val < win0_1.index ⟨(i 0).val, h0⟩ (2 : Fin 4) * 512 + 512
    omega
  | ⟨3, _⟩ =>
    show win0_1.index ⟨(i 0).val, h0⟩ (3 : Fin 4) * 512 ≤ (i 3).val ∧ (i 3).val < win0_1.index ⟨(i 0).val, h0⟩ (3 : Fin 4) * 512 + 512
    omega

/-! ## The array after the run, and the run -/

/-- THE RESULT ARRAY after the run is the fold of the argument array as launched. -/
theorem final (c : Dev nD) : (dats m 0 c).arrAt 1 cfg0.N = fold (m ((c : Thread nD τ).loc main_arg0)) :=
  (dats m 0 c).arrAt_eq_of_cover 1 (fold (V m c main_arg0)) (fun t _ => flushed_eq m c t) covered

/-- The kernel's run re-posted: the result array at the fold of the argument, the argument unchanged. -/
theorem run : θ_run defs (onTc (τ := τ) (main (F := Ideal))) ⟨m, fun _ => 0, ρ⟩ fun r => ∀ c : Dev nD,
      r.2.mem ((c : Thread nD τ).loc main_v0) = fold (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.FoldValue

end
-- ==== Proof.RefFold.lean ====
/-
  THE REFERENCE IS THE FOLD. The reference pads the sixteen batches of nine planes by one row and one column of zeros on
  each side, and for window position `(i, j)` — plane `3 i + j` — takes the 512 × 512 slice of the padded plane that starts
  at row `2 − i`, column `2 − j`: at pixel `(p, q)` that slice holds the padded plane's entry `(2 − i + p, 2 − j + q)`, which
  is the tap at offsets `(2 − i, 2 − j)` (`Cert.Fold.pad_apply_tap`), the padding value being the integer zero converted,
  that is zero. The nine slices are added one after the other onto a plane of zeros, in channel order, and the sum is
  given its unit channel axis: `Cert.Fold.fold` of the argument, index by index.
-/
import proofs.«175158_j55791625175251_1_alg».proof.Proof.Gen.ReferenceIdeal.Read
import proofs.«175158_j55791625175251_1_alg».proof.Proof.FoldSpec

noncomputable section

namespace Cert.ReferenceIdeal.RefValue

open Cert.ReferenceIdeal Cert.ReferenceIdeal.Gen Cert.ReferenceIdeal.Read Cert.Fold
open Idealize.ShloMosaic Idealize.ShloMosaic.ValueIdx

variable (x : (⟨S16x9x512x512, .f32⟩ : BufTy).Contents (Elt Ideal))

/-! ## Row-major arithmetic of a `[16, 512, 512]` index read as `[16, 1, 512, 512]` -/

theorem batch_of (b p q : Nat) (hb : b < 16) (hp : p < 512) (hq : q < 512) : ((b * 512 + p) * 512 + q) / 262144 = b := by omega
theorem row_of (b p q : Nat) (hb : b < 16) (hp : p < 512) (hq : q < 512) : ((b * 512 + p) * 512 + q) / 512 % 512 = p := by omega
theorem col_of (b p q : Nat) (hb : b < 16) (hp : p < 512) (hq : q < 512) : ((b * 512 + p) * 512 + q) % 512 = q := by omega

/-! ## The padded array at a slice's index -/

/-- The padding value: the integer zero converted to a float is zero. -/
theorem fill_eq (j : S_.Idx) : val_main_call0_v0 (F := Ideal) j = (0 : EReal) := by
  show ((((0#32 : BitVec 32).toInt : ℤ) : ℝ) : EReal) = 0
  simp

/-- The padded array read at row `o₁ + p`, column `o₂ + q` of plane `(b, ch)` is that plane's tap at offsets `(o₁, o₂)`. -/
theorem padded_apply (b : Fin 16) (ch : Fin 9) (o₁ o₂ : Nat) (p q : Fin 512) (j : S16x9x514x514.Idx)
    (hj0 : (j 0).val = b.val) (hj1 : (j 1).val = ch.val) (hj2 : (j 2).val = o₁ + p.val) (hj3 : (j 3).val = o₂ + q.val) :
    val_main_v0 (F := Ideal) x j = tap (0 : EReal) (fun a c => x (ix4 b ch a c)) o₁ o₂ p q := by
  unfold val_main_v0
  rw [pad_apply_tap x _ _ h_S_ b ch o₁ o₂ p q j hj0 hj1 hj2 hj3, fill_eq]

/-! ## The nine slices, each read as its plane's tap -/

variable (b : Fin 16) (p q : Fin 512)

/-- Window position (0, 0): plane 0 from row 2, column 2 of the padded plane. -/
theorem slice0 : val_main_v3 (F := Ideal) x (ix3 b p q) = tap (0 : EReal) (fun a c => x (ix4 b 0 a c)) 2 2 p q := by
  rw [val_main_v3_apply, val_main_v2_apply]
  exact padded_apply x b 0 2 2 p q _ (batch_of b.val p.val q.val b.isLt p.isLt q.isLt) rfl
    (congrArg (2 + ·) (row_of b.val p.val q.val b.isLt p.isLt q.isLt)) (congrArg (2 + ·) (col_of b.val p.val q.val b.isLt p.isLt q.isLt))

/-- Window position (0, 1): plane 1 from row 2, column 1. -/
theorem slice1 : val_main_v6 (F := Ideal) x (ix3 b p q) = tap (0 : EReal) (fun a c => x (ix4 b 1 a c)) 2 1 p q := by
  rw [val_main_v6_apply, val_main_v5_apply]
  exact padded_apply x b 1 2 1 p q _ (batch_of b.val p.val q.val b.isLt p.isLt q.isLt) rfl
    (congrArg (2 + ·) (row_of b.val p.val q.val b.isLt p.isLt q.isLt)) (congrArg (1 + ·) (col_of b.val p.val q.val b.isLt p.isLt q.isLt))

/-- Window position (0, 2): plane 2 from row 2, column 0. -/
theorem slice2 : val_main_v9 (F := Ideal) x (ix3 b p q) = tap (0 : EReal) (fun a c => x (ix4 b 2 a c)) 2 0 p q := by
  rw [val_main_v9_apply, val_main_v8_apply]
  exact padded_apply x b 2 2 0 p q _ (batch_of b.val p.val q.val b.isLt p.isLt q.isLt) rfl
    (congrArg (2 + ·) (row_of b.val p.val q.val b.isLt p.isLt q.isLt)) ((col_of b.val p.val q.val b.isLt p.isLt q.isLt).trans (Nat.zero_add _).symm)

/-- Window position (1, 0): plane 3 from row 1, column 2. -/
theorem slice3 : val_main_v12 (F := Ideal) x (ix3 b p q) = tap (0 : EReal) (fun a c => x (ix4 b 3 a c)) 1 2 p q := by
  rw [val_main_v12_apply, val_main_v11_apply]
  exact padded_apply x b 3 1 2 p q _ (batch_of b.val p.val q.val b.isLt p.isLt q.isLt) rfl
    (congrArg (1 + ·) (row_of b.val p.val q.val b.isLt p.isLt q.isLt)) (congrArg (2 + ·) (col_of b.val p.val q.val b.isLt p.isLt q.isLt))

/-- Window position (1, 1), the centre: plane 4 from row 1, column 1. -/
theorem slice4 : val_main_v15 (F := Ideal) x (ix3 b p q) = tap (0 : EReal) (fun a c => x (ix4 b 4 a c)) 1 1 p q := by
  rw [val_main_v15_apply, val_main_v14_apply]
  exact padded_apply x b 4 1 1 p q _ (batch_of b.val p.val q.val b.isLt p.isLt q.isLt) rfl
    (congrArg (1 + ·) (row_of b.val p.val q.val b.isLt p.isLt q.isLt)) (congrArg (1 + ·) (col_of b.val p.val q.val b.isLt p.isLt q.isLt))

/-- Window position (1, 2): plane 5 from row 1, column 0. -/
theorem slice5 : val_main_v18 (F := Ideal) x (ix3 b p q) = tap (0 : EReal) (fun a c => x (ix4 b 5 a c)) 1 0 p q := by
  rw [val_main_v18_apply, val_main_v17_apply]
  exact padded_apply x b 5 1 0 p q _ (batch_of b.val p.val q.val b.isLt p.isLt q.isLt) rfl
    (congrArg (1 + ·) (row_of b.val p.val q.val b.isLt p.isLt q.isLt)) ((col_of b.val p.val q.val b.isLt p.isLt q.isLt).trans (Nat.zero_add _).symm)

/-- Window position (2, 0): plane 6 from row 0, column 2. -/
theorem slice6 : val_main_v21 (F := Ideal) x (ix3 b p q) = tap (0 : EReal) (fun a c => x (ix4 b 6 a c)) 0 2 p q := by
  rw [val_main_v21_apply, val_main_v20_apply]
  exact padded_apply x b 6 0 2 p q _ (batch_of b.val p.val q.val b.isLt p.isLt q.isLt) rfl
    ((row_of b.val p.val q.val b.isLt p.isLt q.isLt).trans (Nat.zero_add _).symm) (congrArg (2 + ·) (col_of b.val p.val q.val b.isLt p.isLt q.isLt))

/-- Window position (2, 1): plane 7 from row 0, column 1. -/
theorem slice7 : val_main_v24 (F := Ideal) x (ix3 b p q) = tap (0 : EReal) (fun a c => x (ix4 b 7 a c)) 0 1 p q := by
  rw [val_main_v24_apply, val_main_v23_apply]
  exact padded_apply x b 7 0 1 p q _ (batch_of b.val p.val q.val b.isLt p.isLt q.isLt) rfl
    ((row_of b.val p.val q.val b.isLt p.isLt q.isLt).trans (Nat.zero_add _).symm) (congrArg (1 + ·) (col_of b.val p.val q.val b.isLt p.isLt q.isLt))

/-- Window position (2, 2): plane 8 from row 0, column 0. -/
theorem slice8 : val_main_v27 (F := Ideal) x (ix3 b p q) = tap (0 : EReal) (fun a c => x (ix4 b 8 a c)) 0 0 p q := by
  rw [val_main_v27_apply, val_main_v26_apply]
  exact padded_apply x b 8 0 0 p q _ (batch_of b.val p.val q.val b.isLt p.isLt q.isLt) rfl
    ((row_of b.val p.val q.val b.isLt p.isLt q.isLt).trans (Nat.zero_add _).symm) ((col_of b.val p.val q.val b.isLt p.isLt q.isLt).trans (Nat.zero_add _).symm)

/-! ## The sum of the slices -/

/-- THE REFERENCE'S RESULT is the fold of its argument: the plane of zeros plus the nine slices in channel order, read at
    `(b, 0, p, q)` through the unit channel axis. -/
theorem ref_fold : val_main_v29 (F := Ideal) x = fold x := by
  funext i
  obtain ⟨b, u, p, q, rfl⟩ : ∃ (b : Fin 16) (u : Fin 1) (p q : Fin 512), i = ix4 b u p q := ⟨i 0, i 1, i 2, i 3, eq_ix4 i⟩
  have hi : idx_main_v29 (ix4 b u p q) = ix3 b p q := by
    funext a; match a with | ⟨0, _⟩ => rfl | ⟨1, _⟩ => rfl | ⟨2, _⟩ => rfl
  rw [val_main_v29_apply, hi, val_main_v28_apply, val_main_v25_apply, val_main_v22_apply, val_main_v19_apply,
    val_main_v16_apply, val_main_v13_apply, val_main_v10_apply, val_main_v7_apply, val_main_v4_apply, val_main_v1_apply,
    val_main_cst_apply, slice0, slice1, slice2, slice3, slice4, slice5, slice6, slice7, slice8, fold_apply]
  unfold foldAt
  simp only [Ideal.addf_def, Ideal.ofBits_def, Ideal.ofBits_zero_f32]

end Cert.ReferenceIdeal.RefValue

end
-- ==== Proof.lean ====
/-
  A FOLD (col2im, 3 × 3 window, stride 1, padding 1, one output channel) BY ROTATIONS IS THE FOLD BY ZERO PADDING.

  The argument is `x : f32[16, 9, 512, 512]`: sixteen batches of nine 512 × 512 planes, plane `3 i + j` being the
  contribution of window position `(i, j)`. Both programs compute, over the extended reals,

      out[b, 0, p, q] = Σ_{i, j ∈ {0, 1, 2}}  x[b, 3 i + j, p − (i − 1), q − (j − 1)]      (a term outside the plane is 0),

  the nine terms added one after the other onto zero, in channel order (`Cert.Fold.fold`, Proof/FoldSpec.lean over the
  tap of Proof/Taps.lean).

  * The reference pads every plane by a row and a column of zeros on each side and adds nine 512 × 512 slices of the
    padded planes, the slice for window position `(i, j)` starting at row `2 − i`, column `2 − j`: each slice is a tap, and
    the reference's result is `fold x` (Proof/RefFold.lean, over the generated reading of the reference's operations).
  * The kernel runs one grid point per batch. A point loads the batch's nine planes, moves plane `3 i + j` by `i − 1` rows
    and `j − 1` columns with a rotation around the end whose wrapped-around border a select on the row or column number
    sets to zero, and adds the moved planes onto zero in channel order: each moved plane is the same tap
    (Proof/KernelBlock.lean), so point `t` writes back block `t` of `fold x`, and the sixteen blocks tile the result
    (Proof/KernelFold.lean, over the generated frame run with the result array named).

  No law of the extended reals is used — the two sums have the same terms in the same order — so the precondition (finite
  inputs) is never opened. The idealization rewrote nothing in the kernel, so `preserves` is `True`; the kernel's two frames are the
  generated ones, the reference's frame is its generated run with the result dropped.
-/
import proofs.«175158_j55791625175251_1_alg».proof.Defs
import proofs.«175158_j55791625175251_1_alg».proof.Proof.Gen.Kernel
import proofs.«175158_j55791625175251_1_alg».proof.Proof.Gen.Kernel.Skeleton
import proofs.«175158_j55791625175251_1_alg».proof.Proof.Gen.Kernel.Launch
import proofs.«175158_j55791625175251_1_alg».proof.Proof.Gen.Kernel.Points
import proofs.«175158_j55791625175251_1_alg».proof.Proof.Gen.Kernel.Frame
import proofs.«175158_j55791625175251_1_alg».proof.Proof.Gen.KernelIdeal
import proofs.«175158_j55791625175251_1_alg».proof.Proof.Gen.KernelIdeal.Skeleton
import proofs.«175158_j55791625175251_1_alg».proof.Proof.Gen.KernelIdeal.Launch
import proofs.«175158_j55791625175251_1_alg».proof.Proof.Gen.KernelIdeal.Points
import proofs.«175158_j55791625175251_1_alg».proof.Proof.Gen.KernelIdeal.Frame
import proofs.«175158_j55791625175251_1_alg».proof.Proof.Gen.ReferenceIdeal
import proofs.«175158_j55791625175251_1_alg».proof.Proof.Gen.Pre_finite_inputs
import proofs.«175158_j55791625175251_1_alg».proof.Proof.Gen.KernelIdeal.Value
import proofs.«175158_j55791625175251_1_alg».proof.Proof.Gen.ReferenceIdeal.Run
import proofs.«175158_j55791625175251_1_alg».proof.Proof.Gen.ReferenceIdeal.Read
import proofs.«175158_j55791625175251_1_alg».proof.Proof.KernelFold
import proofs.«175158_j55791625175251_1_alg».proof.Proof.RefFold
import Idealize.ShloMosaic.Adequacy
import Idealize.ShloMosaic.Init

noncomputable section

namespace Cert.Proof

open Idealize.ShloMosaic Idealize.SL.Sem Cert.Kernel

/-- The word-level kernel runs and leaves its argument as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its argument as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals the kernel's result array ends at the fold of its argument (the sixteen blocks, each the fold
    of its batch) and the reference's at its sum of nine slices of the padded argument, which is the same fold of an
    argument that agrees. -/
theorem algebraic : Cert.algebraic_KernelIdeal_ReferenceIdeal := by
  intro m ρ m' ρ' _ hagree
  refine ⟨_, Cert.KernelIdeal.FoldValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.ref_fold, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
